-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S1x1 : Shape := ⟨2, ![1, 1]⟩
abbrev S1024x2048 : Shape := ⟨2, ![1024, 2048]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 3
  | .vmem => 4
  | .smem => 0
  | _ => 0

abbrev bufTy : (tb : Table) → Fin (tcTables nBuf tb) → BufTy
  | .hbm, ⟨0, _⟩ => ⟨S16384x2048, .f32⟩
  | .hbm, ⟨1, _⟩ => ⟨S1x1, .f32⟩
  | .hbm, ⟨2, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1x1, .f32⟩
  | .local _ .vmem, ⟨3, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v17 : BitVec 1 := Scalar.cmpi .eq arg0 c15_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16384x2048 : Shape := ⟨2, ![16384, 2048]⟩
abbrev S_ : Shape := ⟨0, ![]⟩
abbrev S16384 : Shape := ⟨1, ![16384]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.Pieces.lean ====
/-
  What each of the body's three cases leaves behind, as values, at any float instance. At the first grid point the body
  resets the running total and then stores the total plus the block's sum: the scratch ends at the accumulating store's
  value over the reset's. At a middle point it stores the total the point before left plus the block's sum. At the last
  point it does the same and then stores, into the output block, the final store's value of the total it has just written.
  Each is the body's one covering store read back, a load of a buffer after a store to it reading that store's value.
-/
import proofs.«119990_j35845797052726_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- THE FIRST POINT: the scratch ends at the accumulating store's value of the block over the reset's value. -/
theorem scratch_first (c : Dev nD) (i : grid0.Coords) (a1 : Memref sig .tc .vmem S1024x2048 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x : Vec F S1024x2048 .f32) :
    sout0_A_0 c i a1 h1 a2 h2 a3 h3 hc0 hc1 x = k0_pay2 x (k0_pay1 (F := F)) := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S1024x2048) hz]

/-- A MIDDLE POINT: the scratch ends at the accumulating store's value of the block over what the point before left. -/
theorem scratch_middle (c : Dev nD) (i : grid0.Coords) (a1 : Memref sig .tc .vmem S1024x2048 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x : Vec F S1024x2048 .f32) (xs : Vec F S1x1 .f32) :
    sout0_B_0 c i a1 h1 a2 h2 a3 h3 hc0 hc1 x xs = k0_pay2 x xs := by
  unfold sout0_B_0
  rw [View.read_writes_eq_canon _ _ _ (scover0_B_0 c i a1 h1 a2 h2 a3 h3 hc0 hc1 x xs)]
  unfold kernelRun0_B
  dsimp only
  sl_unfold_words
  rw [View.canon_unit_zero hz]
  simp only [View.readAt_eq_ld, h1.read_unread, h3.read_unread, View.ld_unit_zero (S := S1024x2048) hz,
    View.ld_unit_zero (S := S1x1) hz]

/-- THE LAST POINT, the scratch: as at a middle point. -/
theorem scratch_last (c : Dev nD) (i : grid0.Coords) (a1 : Memref sig .tc .vmem S1024x2048 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S1024x2048 .f32) (xs : Vec F S1x1 .f32) :
    sout0_C_0 c i a1 h1 a2 h2 a3 h3 hc0 hc1 x xs = k0_pay2 x xs := by
  unfold sout0_C_0
  rw [View.read_writes_eq_canon _ _ _ (scover0_C_0 c i a1 h1 a2 h2 a3 h3 hc0 hc1 x xs)]
  unfold kernelRun0_C
  dsimp only
  sl_unfold_words
  rw [View.canon_unit_zero hz]
  simp only [View.readAt_eq_ld, h1.read_unread, h3.read_unread, View.ld_unit_zero (S := S1024x2048) hz,
    View.ld_unit_zero (S := S1x1) hz]

/-- THE LAST POINT, the output block: the final store's value of the total the same point has just written. -/
theorem out_last (c : Dev nD) (i : grid0.Coords) (a1 : Memref sig .tc .vmem S1024x2048 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S1024x2048 .f32) (xs : Vec F S1x1 .f32) :
    out0_C_1 c i a1 h1 a2 h2 a3 h3 hc0 hc1 x xs = k0_pay3 (k0_pay2 x xs) := by
  unfold out0_C_1
  rw [View.read_writes_eq_canon _ _ _ (cover0_C_1 c i a1 h1 a2 h2 a3 h3 hc0 hc1 x xs)]
  unfold kernelRun0_C
  dsimp only
  sl_unfold_words
  rw [View.canon_unit_zero hz, View.readCov_unit_zero (S := S1x1) _ hz]
  simp only [View.readAt_eq_ld, h1.read_unread, h3.read_unread, View.ld_unit_zero (S := S1024x2048) hz,
    View.ld_unit_zero (S := S1x1) hz]

end Cert.KernelIdeal.Pieces

end
-- ==== Proof.Spec.lean ====
/-
  The loss that both programs compute, written once as a function of the argument matrix, and the one law that joins
  their two arrangements of it.

  For a matrix `x` of `R` rows, row `r` contributes the square of (the sum of the squares of its entries, minus one):
  how far the row is from unit length. The loss is a fixed scale times the square root of the sum of these
  contributions over all rows. The reference sums the 16384 contributions in one reduction; the kernel walks the rows
  in 16 blocks of 1024, sums each block's contributions, and adds the block sums one after the other into a running
  total. On the extended reals addition is commutative and associative with no side condition, so a sum over
  `N · B` rows IS the sum over `N` blocks of the sums over the `B` rows of each block (`sum_by_blocks`), and a
  running total that starts at `0 + P 0` and adds `P (n + 1)` at each step is the sum of the `P t` so far
  (`running_total`). Nothing here needs the entries to be finite.
-/
import Idealize.ShloMosaic.PureOps.Ideal.Laws
import Idealize.ShloMosaic.Lib.ValueIdx

noncomputable section

open scoped BigOperators

namespace Cert.UnitRowLoss

open Idealize.ShloMosaic Idealize.ShloMosaic.ValueIdx

/-- The float word of `1.0`, read at the ideal instance: what is taken off a row's sum of squares. -/
abbrev oneWord : EReal := Ideal.ofBits .f32 0x3F800000#32
/-- The float word of the scale `0.001`, read at the ideal instance. The same word stands on both sides, so it is
    never evaluated. -/
abbrev scaleWord : EReal := Ideal.ofBits .f32 0x3A83126F#32

/-- The sum of the squares of row `r`'s entries. -/
def rowSq {R K : ℕ} (x : (⟨2, ![R, K]⟩ : Shape).Idx → EReal) (r : Fin R) : EReal :=
  ∑ k : Fin K, x (ix2 r k) * x (ix2 r k)

/-- Row `r`'s contribution: the square of its sum of squares less one. -/
def rowDev {R K : ℕ} (x : (⟨2, ![R, K]⟩ : Shape).Idx → EReal) (r : Fin R) : EReal :=
  (rowSq x r - oneWord) * (rowSq x r - oneWord)

/-- The contributions of all the rows of a matrix, summed. -/
def devSum {R K : ℕ} (x : (⟨2, ![R, K]⟩ : Shape).Idx → EReal) : EReal := ∑ r : Fin R, rowDev x r

/-- The loss: the scale times the square root of the summed contributions. -/
def loss {R K : ℕ} (x : (⟨2, ![R, K]⟩ : Shape).Idx → EReal) : EReal := scaleWord * Ideal.sqrt (devSum x)

/-- Row `r` of block `t`, when 16384 rows are cut into 16 blocks of 1024: row `1024 t + r` of the matrix. -/
def rowOf (t : Fin 16) (r : Fin 1024) : Fin 16384 := ⟨1024 * t.val + r.val, by have := t.isLt; have := r.isLt; omega⟩

theorem rowOf_val (t : Fin 16) (r : Fin 1024) : (rowOf t r).val = 1024 * t.val + r.val := rfl

/-- A sum over `N · B` positions is the sum over `N` blocks of the sums over each block's `B` positions: position
    `r + B · t` is position `r` of block `t`. Only commutativity and associativity of the addition are used. -/
theorem sum_by_blocks {M : Type} [AddCommMonoid M] (N B : ℕ) (f : Fin (N * B) → M) :
    ∑ t : Fin N, ∑ r : Fin B, f (finProdFinEquiv (t, r)) = ∑ i : Fin (N * B), f i := by
  rw [← Equiv.sum_comp finProdFinEquiv f, Fintype.sum_prod_type]

/-- The same for the 16384 rows in 16 blocks of 1024, with the row named by `rowOf`. -/
theorem sum_rows_by_blocks {M : Type} [AddCommMonoid M] (f : Fin 16384 → M) :
    ∑ t : Fin 16, ∑ r : Fin 1024, f (rowOf t r) = ∑ i : Fin 16384, f i := by
  have h := sum_by_blocks (M := M) 16 1024 f
  refine Eq.trans (Finset.sum_congr rfl fun t _ => Finset.sum_congr rfl fun r _ => congrArg f ?_) h
  apply Fin.ext
  show 1024 * t.val + r.val = r.val + 1024 * t.val
  omega

/-- A block of 1024 rows that reads the matrix at rows `1024 t + r` has, at its row `r`, the matrix's contribution
    of row `1024 t + r`. -/
theorem rowDev_block {K : ℕ} (x : (⟨2, ![16384, K]⟩ : Shape).Idx → EReal) (b : (⟨2, ![1024, K]⟩ : Shape).Idx → EReal)
    (t : Fin 16) (hb : ∀ (r : Fin 1024) (k : Fin K), b (ix2 r k) = x (ix2 (rowOf t r) k)) (r : Fin 1024) :
    rowDev b r = rowDev x (rowOf t r) := by
  unfold rowDev rowSq
  simp only [hb]

/-- So the matrix's summed contributions are the sum, over the 16 blocks, of each block's summed contributions. -/
theorem devSum_by_blocks {K : ℕ} (x : (⟨2, ![16384, K]⟩ : Shape).Idx → EReal)
    (b : Fin 16 → (⟨2, ![1024, K]⟩ : Shape).Idx → EReal)
    (hb : ∀ (t : Fin 16) (r : Fin 1024) (k : Fin K), b t (ix2 r k) = x (ix2 (rowOf t r) k)) :
    ∑ t : Fin 16, devSum (b t) = devSum x := by
  unfold devSum
  rw [← sum_rows_by_blocks (fun i => rowDev x i)]
  exact Finset.sum_congr rfl fun t _ => Finset.sum_congr rfl fun r _ => rowDev_block x (b t) t (hb t) r

/-- A running total that starts at `0 + P 0` and adds `P (n + 1)` at step `n + 1` holds, after step `n`, the sum of
    `P 0 … P n`. -/
theorem running_total (P acc : ℕ → EReal) (h0 : acc 0 = 0 + P 0) (hs : ∀ n, acc (n + 1) = acc n + P (n + 1)) (n : ℕ) :
    acc n = ∑ t ∈ Finset.range (n + 1), P t := by
  induction n with
  | zero => rw [h0, zero_add, Finset.sum_range_one]
  | succ n ih => rw [hs, ih, Finset.sum_range_succ _ (n + 1)]

/-- A rank-1 index set is its one coordinate's range, -/
def idxEquiv1 {n : ℕ} : (⟨1, ![n]⟩ : Shape).Idx ≃ Fin n where
  toFun i := i 0
  invFun a := ix1 a
  left_inv i := (eq_ix1 i).symm
  right_inv _ := rfl

/-- so a sum over it is the sum over the coordinate. -/
theorem sum_idx1 {M : Type} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The one index of a `1 × 1` block. -/
theorem idx11_eq (j : (⟨2, ![1, 1]⟩ : Shape).Idx) : j = ix2 (0 : Fin 1) (0 : Fin 1) := by
  funext a
  apply Fin.ext
  match a with
  | ⟨0, _⟩ => have := idx2_lt0 j; show (j 0).val = 0; omega
  | ⟨1, _⟩ => have := idx2_lt1 j; show (j 1).val = 0; omega

end Cert.UnitRowLoss

end
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.Payload.lean ====
/-
  The body's arithmetic read at an index, at the ideal instance. From a block `x` of 1024 rows and the running total
  `acc` the accumulating store writes `acc + (the block's summed contributions)`: the lane reduction gives each row's sum
  of squares, one is taken off and the difference squared, and the reduction along the rows sums the 1024 results; the
  casts between `[1024]`, `[1024, 1]`, `[1]` and `[1, 1]` move no value. The last point's store writes the scale times
  the square root of the running total, and the first point's reset writes zero.
-/
import proofs.«119990_j35845797052726_1_alg».proof.Proof.Gen.KernelIdeal.Skeleton
import proofs.«119990_j35845797052726_1_alg».proof.Proof.Spec
import proofs.«119990_j35845797052726_1_alg».proof.Proof.LibRowOps
import Idealize.ShloMosaic.Lib.Pipeline.Value

noncomputable section

open scoped BigOperators

namespace Cert.KernelIdeal.Payload

open Idealize.ShloMosaic Idealize.ShloMosaic.ValueIdx Cert.UnitRowLoss Cert.RowOps
open Cert.KernelIdeal Cert.KernelIdeal.Gen

variable {α : Type}

/-- Over a column of `R` values reduced along its rows, the source index with row `r` put back is `(r, 0)`. -/
theorem lift_col {R : ℕ} (h : (⟨2, ![R, 1]⟩ : Shape).Reduces [(0 : Fin 2)] ⟨1, ![1]⟩) (r : Fin R) :
    h.lift (ix1 (0 : Fin 1)) r = ix2 r (0 : Fin 1) := by
  funext c
  apply Fin.ext
  match c with
  | ⟨0, _⟩ => rfl
  | ⟨1, _⟩ => rfl

/-- A sum along the rows of an `R × 1` column, read at its one index: the sum of the column's entries. -/
theorem colSum_apply {R : ℕ} {φ : FTy} (src : FVec Ideal ⟨2, ![R, 1]⟩ φ) (acc : BitVec φ.bits)
    (h : (⟨2, ![R, 1]⟩ : Shape).Reduces [(0 : Fin 2)] ⟨1, ![1]⟩) (hφ : FKind.Formats φ)
    (hacc : acc = FKind.add.neutral φ hφ) :
    multiReduction .add [(0 : Fin 2)] ⟨1, ![1]⟩ src acc h hφ hacc (ix1 (0 : Fin 1)) = ∑ r : Fin R, src (ix2 r (0 : Fin 1)) :=
  (Ideal.multiReduction_add_single src acc h hφ hacc (ix1 (0 : Fin 1))).trans
    (Finset.sum_congr rfl fun r _ => congrArg src (lift_col h r))

/-- A one-entry vector viewed as a `1 × 1` block reads its entry. -/
theorem cast_1_11_apply (v : (⟨1, ![1]⟩ : Shape).Idx → α) (h : (⟨1, ![1]⟩ : Shape).ShapeCasts ⟨2, ![1, 1]⟩) :
    shapeCast ⟨2, ![1, 1]⟩ v h (ix2 (0 : Fin 1) (0 : Fin 1)) = v (ix1 (0 : Fin 1)) :=
  shapeCast_apply v h _ _ (by rw [Shape.rowMajor_val_two, Shape.rowMajor_val_one]; rfl)

/-- A `1 × 1` block viewed as a scalar reads its entry. -/
theorem cast_11_0_apply (v : (⟨2, ![1, 1]⟩ : Shape).Idx → α) (h : (⟨2, ![1, 1]⟩ : Shape).ShapeCasts ⟨0, ![]⟩)
    (i : (⟨0, ![]⟩ : Shape).Idx) : shapeCast ⟨0, ![]⟩ v h i = v (ix2 (0 : Fin 1) (0 : Fin 1)) :=
  shapeCast_apply v h _ _ (by
    have h1 := ((⟨2, ![1, 1]⟩ : Shape).rowMajor (ix2 (0 : Fin 1) (0 : Fin 1))).isLt
    have h2 := ((⟨0, ![]⟩ : Shape).rowMajor i).isLt
    have e1 : (⟨2, ![1, 1]⟩ : Shape).numel = 1 := by decide
    have e2 : (⟨0, ![]⟩ : Shape).numel = 1 := by decide
    omega)

/-- The lane reduction of the squared block, made a column, reads at `(r, 0)` row `r`'s sum of squares. -/
theorem rowSq_apply (x : FVec Ideal ⟨2, ![1024, 2048]⟩ .f32)
    (h1 : (⟨2, ![1024, 2048]⟩ : Shape).Reduces [(1 : Fin 2)] ⟨1, ![1024]⟩) (hφ : FKind.Formats .f32)
    (hacc : (0x00000000#32 : BitVec 32) = FKind.add.neutral .f32 hφ)
    (hc : (⟨1, ![1024]⟩ : Shape).ShapeCasts ⟨2, ![1024, 1]⟩) (r : Fin 1024) :
    shapeCast ⟨2, ![1024, 1]⟩ (multiReduction .add [(1 : Fin 2)] ⟨1, ![1024]⟩ (mulf x x) 0x00000000#32 h1 hφ hacc) hc
      (ix2 r (0 : Fin 1)) = rowSq x r :=
  ((shapeCast_a_a1_apply _ hc r (0 : Fin 1)).trans (rowSum_apply (mulf x x) _ h1 hφ hacc r)).trans
    (Finset.sum_congr rfl fun _ _ => rfl)

/-- THE ACCUMULATING STORE: the running total plus the block's summed contributions. -/
theorem pay2_apply (x : FVec Ideal S1024x2048 .f32) (acc : FVec Ideal S1x1 .f32) :
    k0_pay2 (F := Ideal) x acc (ix2 (0 : Fin 1) (0 : Fin 1)) = acc (ix2 (0 : Fin 1) (0 : Fin 1)) + devSum x := by
  unfold k0_pay2
  refine (congrFun (shapeCast_self _ _) _).trans ?_
  show acc (ix2 (0 : Fin 1) (0 : Fin 1)) + _ = _
  refine congrArg (acc (ix2 (0 : Fin 1) (0 : Fin 1)) + ·) ?_
  refine (cast_1_11_apply _ _).trans ?_
  refine (colSum_apply _ _ _ _ _).trans ?_
  unfold devSum
  refine Finset.sum_congr rfl fun r _ => ?_
  exact congrArg (fun s : EReal => (s - oneWord) * (s - oneWord)) (rowSq_apply x _ _ _ _ r)

/-- THE LAST POINT'S STORE: the scale times the square root of the running total. -/
theorem pay3_apply (v : FVec Ideal S1x1 .f32) :
    k0_pay3 (F := Ideal) v (ix2 (0 : Fin 1) (0 : Fin 1)) = scaleWord * Ideal.sqrt (v (ix2 (0 : Fin 1) (0 : Fin 1))) := rfl

/-- THE RESET: zero. -/
theorem pay1_apply : (k0_pay1 (F := Ideal)) (ix2 (0 : Fin 1) (0 : Fin 1)) = 0 := by
  unfold k0_pay1
  refine (congrFun (shapeCast_self _ _) _).trans ?_
  exact Ideal.ofBits_zero_f32

end Cert.KernelIdeal.Payload

end
-- ==== Proof.KernelValue.lean ====
/-
  What the idealized kernel's run leaves in its result, at the ideal instance: the loss of the argument matrix.

  The window over the argument stages, at grid point `t`, rows `1024 t … 1024 t + 1023` of the matrix. The scratch the
  body carries from point to point holds, after point `n`, the sum of the summed contributions of blocks `0 … n` (by
  induction on the point: the first point resets to zero and adds block 0's sum, every later point adds its block's sum
  to what the point before left). After the last point that is the sum over the 16 blocks, which is the sum over all
  16384 rows. The output block is stored at the last point only, with the scale times the square root of the total the
  same point has just written; that point's write-back covers the `1 × 1` result array, and the reshape after the region
  reads its one entry as the scalar result.
-/
import proofs.«119990_j35845797052726_1_alg».proof.Defs
import proofs.«119990_j35845797052726_1_alg».proof.Proof.Gen.KernelIdeal.Frame
import proofs.«119990_j35845797052726_1_alg».proof.Proof.Pieces
import proofs.«119990_j35845797052726_1_alg».proof.Proof.Payload
import proofs.«119990_j35845797052726_1_alg».proof.Proof.Spec
import Idealize.ShloMosaic.Lib.Pipeline.Value
import Idealize.ShloMosaic.Lib.StableHlo.Run
import Idealize.ShloMosaic.Lib.Tactic

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.UnitRowLoss

variable (m : (ℓ : Loc nD τ sig) → Buf (Elt Ideal) ℓ) (ρ : Dev nD → PrngReg)

/-- The argument matrix as the region finds it. -/
abbrev xarr (c : Dev nD) : FVec Ideal S16384x2048 .f32 := V m c main_arg0

/-- The block of 1024 rows the window stages at point `t`. -/
abbrev xblk (c : Dev nD) (t : Fin cfg0.N) : FVec Ideal S1024x2048 .f32 := iblk m c 0 t

/-- A grid point as a block number below 16. -/
def blockNo (t : Fin cfg0.N) : Fin 16 := ⟨t.val, lt_of_lt_of_eq t.isLt (show cfg0.N = 16 from N_0)⟩

/-- The window's block index at point `t` is `(t, 0)`: decided over the grid. -/
theorem index_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry `(r, k)` of the block at point `t` is entry `(1024 t + r, k)` of the matrix. -/
theorem xblk_apply (c : Dev nD) (t : Fin cfg0.N) (r : Fin 1024) (k : Fin 2048) :
    xblk m c t (ix2 r k) = xarr m c (ix2 (rowOf (blockNo t) r) k) := by
  have hi := index_facts t
  unfold xblk iblk
  rw [View.read_apply]
  show V m c main_arg0 _ = V m c main_arg0 _
  congr 1
  funext a
  apply Fin.ext
  match a with
  | ⟨0, _⟩ => show win0_0.index t 0 * 1024 + 1 * r.val = 1024 * t.val + r.val; rw [hi.1]; omega
  | ⟨1, _⟩ => show win0_0.index t 1 * 2048 + 1 * k.val = k.val; rw [hi.2]; omega

/-! ## The carried scratch, point by point -/

/-- The first point: the scratch ends at the accumulating store's value of block 0 over the reset's zero. -/
theorem scratch_at_first (c : Dev nD) (t : Fin cfg0.N) (h0 : t.val % 16 = 0) (h1 : ¬t.val % 16 = 15) :
    (outsAt0 m c t.val t.isLt).2 = k0_pay2 (F := Ideal) (xblk m c t) (k0_pay1 (F := Ideal)) := by
  rw [outsAt0_A m c t h0 h1]
  dsimp only
  exact Pieces.scratch_first (F := Ideal) c (grid0.coords t) (ms0_0 t) (hs0_0 t) (ms0_1 t) (hs0_1 t) scM0_0
    (Memref.isWhole_whole _) ((hcond0_0 t).mpr h0) (fun h => h1 ((hcond0_1 t).mp h)) (iblk m c 0 t)

/-- A middle point: the accumulating store's value of its block over what the point before left. -/
theorem scratch_at_middle (c : Dev nD) (t : Fin cfg0.N) (h0 : ¬t.val % 16 = 0) (h1 : ¬t.val % 16 = 15) :
    (outsAt0 m c t.val t.isLt).2 = k0_pay2 (F := Ideal) (xblk m c t)
      (outsAt0 m c (t.val - 1) (Nat.lt_of_le_of_lt (Nat.sub_le _ _) t.isLt)).2 := by
  rw [outsAt0_B m c t h0 h1]
  dsimp only
  exact Pieces.scratch_middle (F := Ideal) c (grid0.coords t) (ms0_0 t) (hs0_0 t) (ms0_1 t) (hs0_1 t) scM0_0
    (Memref.isWhole_whole _) (fun h => h0 ((hcond0_0 t).mp h)) (fun h => h1 ((hcond0_1 t).mp h)) (iblk m c 0 t)
    (outsAt0 m c (t.val - 1) (Nat.lt_of_le_of_lt (Nat.sub_le _ _) t.isLt)).2

/-- The last point, the scratch: the same. -/
theorem scratch_at_last (c : Dev nD) (t : Fin cfg0.N) (h0 : ¬t.val % 16 = 0) (h1 : t.val % 16 = 15) :
    (outsAt0 m c t.val t.isLt).2 = k0_pay2 (F := Ideal) (xblk m c t)
      (outsAt0 m c (t.val - 1) (Nat.lt_of_le_of_lt (Nat.sub_le _ _) t.isLt)).2 := by
  rw [outsAt0_C m c t h0 h1]
  dsimp only
  exact Pieces.scratch_last (F := Ideal) c (grid0.coords t) (ms0_0 t) (hs0_0 t) (ms0_1 t) (hs0_1 t) scM0_0
    (Memref.isWhole_whole _) (fun h => h0 ((hcond0_0 t).mp h)) ((hcond0_1 t).mpr h1) (iblk m c 0 t)
    (outsAt0 m c (t.val - 1) (Nat.lt_of_le_of_lt (Nat.sub_le _ _) t.isLt)).2

/-- The last point, the output block: the final store's value of the scratch the same point leaves. -/
theorem out_at_last (c : Dev nD) (t : Fin cfg0.N) (h0 : ¬t.val % 16 = 0) (h1 : t.val % 16 = 15) :
    (outsAt0 m c t.val t.isLt).1 = k0_pay3 (F := Ideal) (outsAt0 m c t.val t.isLt).2 := by
  rw [scratch_at_last m c t h0 h1, outsAt0_C m c t h0 h1]
  dsimp only
  exact Pieces.out_last (F := Ideal) c (grid0.coords t) (ms0_0 t) (hs0_0 t) (ms0_1 t) (hs0_1 t) scM0_0
    (Memref.isWhole_whole _) (fun h => h0 ((hcond0_0 t).mp h)) ((hcond0_1 t).mpr h1) (iblk m c 0 t)
    (outsAt0 m c (t.val - 1) (Nat.lt_of_le_of_lt (Nat.sub_le _ _) t.isLt)).2

/-- Block `t`'s summed contributions, as a function on every natural number (zero past the grid). -/
def blockSum (c : Dev nD) (t : ℕ) : EReal := if h : t < cfg0.N then devSum (xblk m c ⟨t, h⟩) else 0

/-- THE RUNNING TOTAL: after point `n` the scratch holds the sum of the block sums `0 … n`. By induction on the point. -/
theorem scratch_total (c : Dev nD) : ∀ (n : ℕ) (h : n < cfg0.N),
    (outsAt0 m c n h).2 (ix2 (0 : Fin 1) (0 : Fin 1)) = ∑ t ∈ Finset.range (n + 1), blockSum m c t
  | 0, h => by
    have e := congrFun (scratch_at_first m c ⟨0, h⟩ rfl (show ¬(0 : ℕ) % 16 = 15 by decide)) (ix2 (0 : Fin 1) (0 : Fin 1))
    refine e.trans ?_
    rw [Payload.pay2_apply, Payload.pay1_apply, zero_add, Finset.sum_range_one, blockSum, dif_pos h]
  | n + 1, h => by
    have ih := scratch_total c n (Nat.lt_of_succ_lt h)
    have hN : cfg0.N = 16 := N_0
    have h0 : ¬(⟨n + 1, h⟩ : Fin cfg0.N).val % 16 = 0 := by dsimp only; omega
    have hP : blockSum m c (n + 1) = devSum (xblk m c ⟨n + 1, h⟩) := dif_pos h
    rw [Finset.sum_range_succ _ (n + 1), ← ih, hP]
    by_cases h1 : (⟨n + 1, h⟩ : Fin cfg0.N).val % 16 = 15
    · exact (congrFun (scratch_at_last m c ⟨n + 1, h⟩ h0 h1) _).trans (Payload.pay2_apply _ _)
    · exact (congrFun (scratch_at_middle m c ⟨n + 1, h⟩ h0 h1) _).trans (Payload.pay2_apply _ _)

/-- The sum of all 16 block sums is the matrix's summed contributions. -/
theorem total_eq (c : Dev nD) : ∑ t ∈ Finset.range 16, blockSum m c t = devSum (xarr m c) := by
  have hN : cfg0.N = 16 := N_0
  rw [Finset.sum_range]
  rw [← devSum_by_blocks (xarr m c) (fun t : Fin 16 => xblk m c ⟨t.val, by rw [hN]; exact t.isLt⟩)
    (fun t r k => xblk_apply m c ⟨t.val, by rw [hN]; exact t.isLt⟩ r k)]
  refine Finset.sum_congr rfl fun t _ => ?_
  exact dif_pos (by rw [hN]; exact t.isLt)

/-! ## The result array and the scalar result -/

/-- What the `1 × 1` result array ends holding: the loss of the argument, at its one entry. -/
abbrev result (c : Dev nD) : Buf (Elt Ideal) ((c : Thread nD τ).loc main_v0) := fun _ => loss (xarr m c)

/-- The output block the last point stores is that. -/
theorem out_final (c : Dev nD) : (outsAt0 m c t0_15.val t0_15.isLt).1 = result m c := by
  have h0 : ¬t0_15.val % 16 = 0 := by decide
  have h1 : t0_15.val % 16 = 15 := by decide
  rw [out_at_last m c t0_15 h0 h1]
  funext j
  obtain rfl := idx11_eq j
  have e : (outsAt0 m c t0_15.val t0_15.isLt).2 (ix2 (0 : Fin 1) (0 : Fin 1)) = ∑ t ∈ Finset.range 16, blockSum m c t :=
    scratch_total m c 15 t0_15.isLt
  rw [Payload.pay3_apply, e, total_eq]
  rfl

/-- The one write-back, at point 15, writes it: block (0, 0) of the `1 × 1` array read through zero offsets is the array. -/
theorem flushed_eq (c : Dev nD) (t : Fin cfg0.N) (hf : (cfg0.win 1).flush t = true) :
    (dats m 0 c).flushed 1 t = ((cfg0.win 1).blk t).view.read (Elt Ideal) (result m c) := by
  have hN : cfg0.N = 16 := N_0
  have h15 : t.val = 15 := by have := (flush0_1 t).mp hf; have := t.isLt; omega
  obtain rfl : t = t0_15 := Fin.ext h15
  show (cfg0.win 1).cut (grid0.coords t0_15) ((dats m 0 c).after 1 t0_15) = _
  rw [after0_1, out_final]
  have hz' : (fun a => win0_1.index t0_15 a * main_v0.ty.shape.size a) = fun _ => 0 := funext fun a => by fin_cases a <;> decide
  exact (Memref.read_access_unit_zero (Elt Ideal) main_v0 hz' (fun a => by rw [congrFun hz' a]; simp) (result m c)).symm

/-- So the result array ends holding the loss (point 15's block covers it). -/
theorem final_o (c : Dev nD) : (dats m 0 c).arrAt 1 cfg0.N = result m c :=
  (dats m 0 c).arrAt_eq_of_cover 1 (result m c) (flushed_eq m c) fun i =>
    ⟨t0_15, (flush0_1 t0_15).mpr rfl, by
      show i ∈ ((View.whole main_v0).slice (win0_1.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1 from by decide +kernel]; omega⟩

/-- The reshape after the region reads the result array's one entry as the scalar result. -/
theorem tail_eq (c : Dev nD) :
    Pipeline.afterTail₀ cfgs (dats m) 0 (V0 m) [hostOps1] c main_v1 = fun _ => loss (xarr m c) := by
  unfold Pipeline.afterTail₀
  show StableHlo.after hostOps1 _ (Proc.devRef .tc main_v1) = _
  after_results
  funext i
  show shapeCast S_ (Pipeline.withArrays (cfgs 0).spec c (V0 m c) (fun w => (dats m 0 c).arrAt w (cfgs 0).N)
    (Proc.devRef .tc main_v0)) shapeCasts_S1x1_S_ i = _
  refine (Payload.cast_11_0_apply _ _ i).trans ?_
  have e : Pipeline.withArrays (cfgs 0).spec c (V0 m c) (fun w => (dats m 0 c).arrAt w (cfgs 0).N)
      (Proc.devRef .tc main_v0) = result m c :=
    (Pipeline.withArrays_arr spec0 launch0.win.arr_inj c _ _ 1).trans (final_o m c)
  exact congrFun e _

/-- The scalar result is no array of the pipeline: it is among the other unscoped buffers the run's post speaks of. -/
theorem result_mem_rest : main_v1 ∈ Pipeline.restRefs sig (cfgs 0).spec :=
  Pipeline.mem_restRefs_of main_v1 rfl (fun w => by fin_cases w <;> decide)

/-- THE RUN, READ: every weakly fair execution of the idealized kernel's program terminates with the scalar result at
    the loss of the argument matrix, and the argument unchanged. -/
theorem run : θ_run defs (onTc (τ := τ) (main (F := Ideal))) ⟨m, fun _ => 0, ρ⟩ fun r => ∀ c : Dev nD,
      r.2.mem ((c.tc : Thread nD τ).loc main_v1) = (fun _ => loss (m ((c.tc : Thread nD τ).loc main_arg0)))
      ∧ r.2.mem ((c.tc : Thread nD τ).loc main_arg0) = m ((c.tc : Thread nD τ).loc main_arg0) :=
  (θ_run defs _ _).mono (fun _ h c =>
      ⟨((h c).2 main_v1 result_mem_rest).trans (tail_eq m c),
        ((h c).1 0).trans (((dats m 0 c).arrAt_in 0 rfl _).trans ((A_eq m c 0).trans (V_main_arg0 m c)))⟩)
    (run_main m ρ)

end Cert.KernelIdeal.KValue

end
-- ==== Proof.RefValue.lean ====
/-
  The reference, read one operation at a time at the ideal instance, is the loss of its argument: its first reduction
  gives each row's sum of squares (from the initial value zero), the subtraction and the product give the row's
  contribution, its second reduction sums the contributions over all 16384 rows (again from zero), and the square root
  and the scale follow. The host's square root and the kernel's are one function on the extended reals.
-/
import proofs.«119990_j35845797052726_1_alg».proof.Defs
import proofs.«119990_j35845797052726_1_alg».proof.Proof.Gen.ReferenceIdeal.Read
import proofs.«119990_j35845797052726_1_alg».proof.Proof.Spec

noncomputable section

open scoped BigOperators

namespace Cert.ReferenceIdeal.RefValue

open Idealize.ShloMosaic Idealize.ShloMosaic.ValueIdx Cert.UnitRowLoss
open Cert.ReferenceIdeal Cert.ReferenceIdeal.Read

/-- The entry of row `r` the first reduction adds at position `k` is the matrix's entry `(r, k)`. -/
theorem idx_row (r : Fin 16384) (k : Fin 2048) : idx_main_v1 (ix1 r) k = ix2 r k := by
  funext a
  apply Fin.ext
  match a with
  | ⟨0, _⟩ => rfl
  | ⟨1, _⟩ => rfl

/-- At row `r` the reference's squared difference is that row's contribution. -/
theorem contribution_at (x : FVec Ideal S16384x2048 .f32) (r : Fin 16384) :
    val_main_v4 (F := Ideal) x (ix1 r) = rowDev x r := by
  rw [val_main_v4_apply, val_main_v3_apply, val_main_v1_apply, val_main_v2_apply]
  simp only [val_main_v0_apply, val_main_cst_apply, val_main_cst_0_apply, idx_row, Ideal.mulf_def, Ideal.subf_def,
    Ideal.ofBits_def, Ideal.ofBits_zero_f32, zero_add]
  rfl

/-- The reference's result is the loss of its argument. -/
theorem reference_is_loss (x : FVec Ideal S16384x2048 .f32) (i : S_.Idx) :
    val_main_v7 (F := Ideal) x i = loss x := by
  rw [val_main_v7_apply, val_main_v6_apply, val_main_v5_apply, sum_idx1]
  simp only [contribution_at, val_main_cst_1_apply, val_main_cst_2_apply, Ideal.mulf_def, Ideal.hostUnary_sqrt_def,
    Ideal.ofBits_def, Ideal.ofBits_zero_f32, zero_add]
  rfl

end Cert.ReferenceIdeal.RefValue

end
-- ==== Proof.lean ====
/-
  The proof of `Cert.Claim`: the kernel and its reference compute one loss.

  For a matrix of 16384 rows of 2048 entries, row `r` contributes the square of (the sum of the squares of its entries,
  minus one), and the loss is the float word of 0.001 times the square root of the sum of the contributions. The reference
  sums all 16384 contributions in one reduction. The kernel walks the rows in 16 blocks of 1024: at each grid point it
  adds the block's summed contributions to a running total it carries in a scratch buffer (reset to zero at the first
  point), and at the last point it stores the scale times the square root of the total; a reshape then reads the one
  stored entry as the scalar result. On the extended reals the sum over the rows IS the sum over the blocks of the sums
  over each block's rows (addition there is commutative and associative with no side condition), the kernel's and the
  host's square roots are one function, and the scale is the same float word on both sides: so the two results are equal
  at every input, finite or not, and the finiteness precondition is never opened.

  The three frames are the generated ones (the reference's is its generated run with the result dropped); the ideal
  pass rewrote nothing, so `preserves` is trivial; `algebraic` puts the kernel's run read as a value
  (Proof/KernelValue.lean) beside the reference's run read one operation at a time (Proof/RefValue.lean), both ending at
  the loss of the same argument (Proof/Spec.lean).
-/
import proofs.«119990_j35845797052726_1_alg».proof.Defs
import proofs.«119990_j35845797052726_1_alg».proof.Proof.Gen.Kernel
import proofs.«119990_j35845797052726_1_alg».proof.Proof.Gen.Kernel.Skeleton
import proofs.«119990_j35845797052726_1_alg».proof.Proof.Gen.Kernel.Launch
import proofs.«119990_j35845797052726_1_alg».proof.Proof.Gen.Kernel.Points
import proofs.«119990_j35845797052726_1_alg».proof.Proof.Gen.Kernel.Frame
import proofs.«119990_j35845797052726_1_alg».proof.Proof.Gen.KernelIdeal
import proofs.«119990_j35845797052726_1_alg».proof.Proof.Gen.KernelIdeal.Skeleton
import proofs.«119990_j35845797052726_1_alg».proof.Proof.Gen.KernelIdeal.Launch
import proofs.«119990_j35845797052726_1_alg».proof.Proof.Gen.KernelIdeal.Points
import proofs.«119990_j35845797052726_1_alg».proof.Proof.Gen.KernelIdeal.Frame
import proofs.«119990_j35845797052726_1_alg».proof.Proof.Gen.ReferenceIdeal
import proofs.«119990_j35845797052726_1_alg».proof.Proof.Gen.ReferenceIdeal.Run
import proofs.«119990_j35845797052726_1_alg».proof.Proof.Gen.ReferenceIdeal.Read
import proofs.«119990_j35845797052726_1_alg».proof.Proof.Gen.Pre_finite_inputs
import proofs.«119990_j35845797052726_1_alg».proof.Proof.KernelValue
import proofs.«119990_j35845797052726_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance both programs end with the loss of the argument they agree on. -/
theorem algebraic : Cert.algebraic_KernelIdeal_ReferenceIdeal := by
  intro m ρ m' ρ' _ hagree
  refine ⟨fun c => fun _ => Cert.UnitRowLoss.loss
    (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, hagree c]
  funext i
  exact Cert.ReferenceIdeal.RefValue.reference_is_loss _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
